-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S32 : Shape := ⟨1, ![32]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32x1x512x512 1) : IVec S_ 1 :=
  let main_c_5 : IVec S_ 1 := constantI S_ 1 1#1
  let main_v17 : IVec S_ 1 := (fun x v => Host.reduce IntOp.andi x v reducesTo_S32x1x512x512_S_d0_1_2_3 h_S_) main_v16 main_c_5
  let main_v18 : IVec S_ 1 := andi main_v13 main_v17
  main_v18

def fn {F : FTy → Type} [FloatOps F] (main_arg0 : FVec F S32x1x512x512 .f32) (main_arg1 : FVec F S32 .f32) (main_arg2 : FVec F S32x1x512x512 .f32) (main_arg3 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32x1x512x512 .f32 := Host.absf main_arg2
  let main_cst_2 : FVec F S_ .f32 := constant S_ .f32 0x7F800000#32
  let main_v10 : FVec F S32x1x512x512 .f32 := broadcastInDim S32x1x512x512 ![] bcast_S_S32x1x512x512 main_cst_2
  let main_v11 : IVec S32x1x512x512 1 := cmpf .olt main_v9 main_v10
  let main_c_3 : IVec S_ 1 := constantI S_ 1 1#1
  let main_v12 : IVec S_ 1 := (fun x v => Host.reduce IntOp.andi x v reducesTo_S32x1x512x512_S_d0_1_2_3 h_S_) main_v11 main_c_3
  let main_v13 : IVec S_ 1 := andi main_v8 main_v12
  let main_v14 : FVec F S32x1x512x512 .f32 := Host.absf main_arg3
  let main_cst_4 : FVec F S_ .f32 := constant S_ .f32 0x7F800000#32
  let main_v15 : FVec F S32x1x512x512 .f32 := broadcastInDim S32x1x512x512 ![] bcast_S_S32x1x512x512 main_cst_4
  let main_v16 : IVec S32x1x512x512 1 := cmpf .olt main_v14 main_v15
  fn_part1 (F := F) main_v13 main_v16
-- ==== Kernel.lean ====
abbrev S32x1x512x512 : Shape := ⟨4, ![32, 1, 512, 512]⟩
abbrev S32 : Shape := ⟨1, ![32]⟩
abbrev S32x1x1x1 : Shape := ⟨4, ![32, 1, 1, 1]⟩
abbrev S1x1 : Shape := ⟨2, ![1, 1]⟩
abbrev S4x1x512x512 : Shape := ⟨4, ![4, 1, 512, 512]⟩
abbrev S4x1x1x1 : Shape := ⟨4, ![4, 1, 1, 1]⟩
abbrev S4x1x512 : Shape := ⟨3, ![4, 1, 512]⟩
abbrev S4x1x512x1 : Shape := ⟨4, ![4, 1, 512, 1]⟩
abbrev S4x1x1 : Shape := ⟨3, ![4, 1, 1]⟩
abbrev S1x1x1 : Shape := ⟨3, ![1, 1, 1]⟩
abbrev S1x1x1x1 : Shape := ⟨4, ![1, 1, 1, 1]⟩
abbrev S_ : Shape := ⟨0, ![]⟩

abbrev nBuf : Space → Nat
  | .hbm => 7
  | .vmem => 11
  | .smem => 0
  | _ => 0

abbrev bufTy : (tb : Table) → Fin (tcTables nBuf tb) → BufTy
  | .hbm, ⟨0, _⟩ => ⟨S32x1x512x512, .f32⟩
  | .hbm, ⟨1, _⟩ => ⟨S32, .f32⟩
  | .hbm, ⟨2, _⟩ => ⟨S32x1x512x512, .f32⟩
  | .hbm, ⟨3, _⟩ => ⟨S32x1x512x512, .f32⟩
  | .hbm, ⟨4, _⟩ => ⟨S32x1x1x1, .f32⟩
  | .hbm, ⟨5, _⟩ => ⟨S1x1, .f32⟩
  | .hbm, ⟨6, _⟩ => ⟨S_, .f32⟩
  | .local _ .vmem, ⟨0, _⟩ => ⟨S4x1x512x512, .f32⟩
  | .local _ .vmem, ⟨1, _⟩ => ⟨S4x1x512x512, .f32⟩
  | .local _ .vmem, ⟨2, _⟩ => ⟨S4x1x512x512, .f32⟩
  | .local _ .vmem, ⟨3, _⟩ => ⟨S4x1x512x512, .f32⟩
  | .local _ .vmem, ⟨4, _⟩ => ⟨S4x1x512x512, .f32⟩
  | .local _ .vmem, ⟨5, _⟩ => ⟨S4x1x512x512, .f32⟩
  | .local _ .vmem, ⟨6, _⟩ => ⟨S4x1x1x1, .f32⟩
  | .local _ .vmem, ⟨7, _⟩ => ⟨S4x1x1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v51 : BitVec 1 := Scalar.cmpi .eq arg0 c7_i32
  let v52 : BitVec 32 := Scalar.extui v51
  let c0_i32_33 : BitVec 32 := 0#32
  let v53 : BitVec 1 := Scalar.cmpi .ne v52 c0_i32_33
  v53

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S32_S32x1x1x1 : S32.ShapeCasts S32x1x1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4x1x512x512_S4x1x512x512_0_0_0_0 : ∀ a, (![0, 0, 0, 0] : Fin 4 → Nat) a + S4x1x512x512.size a ≤ S4x1x512x512.size a
  h_S4x1x512x512 : 0 < S4x1x512x512.numel
  inb_S4x1x1x1_S4x1x1x1_0_0_0_0 : ∀ a, (![0, 0, 0, 0] : Fin 4 → Nat) a + S4x1x1x1.size a ≤ S4x1x1x1.size a
  h_S4x1x1x1 : 0 < S4x1x1x1.numel
  shapeCasts_S4x1x1x1_S4x1x1x1 : S4x1x1x1.ShapeCasts S4x1x1x1
  natLt_1_32 : 1 < 32
  broadcasts_S4x1x1x1_S4x1x512x512 : S4x1x1x1.Broadcasts S4x1x512x512
  reduces_S4x1x512x512_S4x1x512 : S4x1x512x512.Reduces [3] S4x1x512
  shapeCasts_S4x1x512_S4x1x512x1 : S4x1x512.ShapeCasts S4x1x512x1
  reduces_S4x1x512x1_S4x1x1 : S4x1x512x1.Reduces [2] S4x1x1
  shapeCasts_S4x1x1_S4x1x1x1 : S4x1x1.ShapeCasts S4x1x1x1
  reduces_S4x1x1x1_S1x1x1 : S4x1x1x1.Reduces [0] S1x1x1
  shapeCasts_S1x1x1_S1x1x1x1 : S1x1x1.ShapeCasts S1x1x1x1
  shapeCasts_S1x1x1x1_S1x1 : S1x1x1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x512x512.size a ≤ S32x1x512x512.size a
  hwx0_0 : ∀ i : grid0.Coords, EltTy.bits .f32 = 32 ∨ (Rect.block (s := S32x1x512x512) S4x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x512x512.size a ≤ S32x1x512x512.size a
  hwx0_1 : ∀ i : grid0.Coords, EltTy.bits .f32 = 32 ∨ (Rect.block (s := S32x1x512x512) S4x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x512x512.size a ≤ S32x1x512x512.size a
  hwx0_2 : ∀ i : grid0.Coords, EltTy.bits .f32 = 32 ∨ (Rect.block (s := S32x1x512x512) S4x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x1x1.size a ≤ S32x1x1x1.size a
  hwx0_3 : ∀ i : grid0.Coords, EltTy.bits .f32 = 32 ∨ (Rect.block (s := S32x1x1x1) S4x1x1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S4x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x1x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x1x512x512 : Shape := ⟨4, ![32, 1, 512, 512]⟩
abbrev S32 : Shape := ⟨1, ![32]⟩
abbrev S_ : Shape := ⟨0, ![]⟩
abbrev S32x1x1x1 : Shape := ⟨4, ![32, 1, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32, .f32⟩
  | .hbm, ⟨2, _⟩ => ⟨S32x1x512x512, .f32⟩
  | .hbm, ⟨3, _⟩ => ⟨S32x1x512x512, .f32⟩
  | .hbm, ⟨4, _⟩ => ⟨S_, .f32⟩
  | .hbm, ⟨5, _⟩ => ⟨S32x1x512x512, .f32⟩
  | .hbm, ⟨6, _⟩ => ⟨S32x1x512x512, .i1⟩
  | .hbm, ⟨7, _⟩ => ⟨S_, .f32⟩
  | .hbm, ⟨8, _⟩ => ⟨S32x1x512x512, .f32⟩
  | .hbm, ⟨9, _⟩ => ⟨S32x1x512x512, .i1⟩
  | .hbm, ⟨10, _⟩ => ⟨S32x1x512x512, .i1⟩
  | .hbm, ⟨11, _⟩ => ⟨S32x1x1x1, .f32⟩
  | .hbm, ⟨12, _⟩ => ⟨S_, .f32⟩
  | .hbm, ⟨13, _⟩ => ⟨S32x1x512x512, .f32⟩
  | .hbm, ⟨14, _⟩ => ⟨S32x1x512x512, .f32⟩
  | .hbm, ⟨15, _⟩ => ⟨S32x1x512x512, .f32⟩
  | .hbm, ⟨16, _⟩ => ⟨S32x1x512x512, .f32⟩
  | .hbm, ⟨17, _⟩ => ⟨S32x1x512x512, .f32⟩
  | .hbm, ⟨18, _⟩ => ⟨S32x1x512x512, .f32⟩
  | .hbm, ⟨19, _⟩ => ⟨S32x1x512x512, .f32⟩
  | .hbm, ⟨20, _⟩ => ⟨S32x1x512x512, .f32⟩
  | .hbm, ⟨21, _⟩ => ⟨S32x1x512x512, .f32⟩
  | .hbm, ⟨22, _⟩ => ⟨S32x1x512x512, .f32⟩
  | .hbm, ⟨23, _⟩ => ⟨S32x1x512x512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32x1x512x512, .f32⟩
  | .hbm, ⟨29, _⟩ => ⟨S_, .f32⟩
  | .hbm, ⟨30, _⟩ => ⟨S_, .f32⟩
  | .hbm, ⟨31, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S32x1x512x512 : S_.BroadcastsInDim S32x1x512x512 (![] : Fin 0 → Fin S32x1x512x512.rank)
  bcast_S32_S32x1x1x1_0 : S32.BroadcastsInDim S32x1x1x1 (![0] : Fin 1 → Fin S32x1x1x1.rank)
  bcast_S32x1x1x1_S32x1x512x512_0_1_2_3 : S32x1x1x1.BroadcastsInDim S32x1x512x512 (![0, 1, 2, 3] : Fin 4 → Fin S32x1x512x512.rank)
  reducesTo_S32x1x512x512_S_d0_1_2_3 : S32x1x512x512.ReducesTo [0, 1, 2, 3] S_
  h_S_ : 0 < S_.numel

variable [Facts₀]

class Facts : Prop extends Facts₀ where

variable [Facts]
-- ==== Proof.Pieces.lean ====
/-
  What one run of the loss kernel's body leaves behind, read as values. The body keeps two one-entry accumulators
  (the running sum of the masked loss and the running count of the mask) in scratch buffers. At the first grid point
  it stores zero into both and then adds the point's block totals; at every later point it adds the block totals to
  what the point before left; at the last point it also stores the quotient `sum / max(count, 1)` into the output
  block. Each lemma below says that the contents one case of the body leaves in one buffer — found by running the
  body as a list of stored pieces — is the body's arithmetic applied to the blocks it loaded and to what the
  accumulators held. The input blocks are passed in the order (logits, prostate mask, needle mask, labels).
-/
import proofs.«147590_j15908558864773_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- First point, the running sum: zero was stored and read back, then the block's masked-loss total added. -/
theorem sum_first (c : Dev nD) (i : grid0.Coords) (a1 : Memref sig .tc .vmem S4x1x512x512 .f32) (h1 : a1.IsWhole) (a2 : Memref sig .tc .vmem S4x1x512x512 .f32) (h2 : a2.IsWhole) (a3 : Memref sig .tc .vmem S4x1x512x512 .f32) (h3 : a3.IsWhole) (a4 : Memref sig .tc .vmem S4x1x1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i) (x0 x1 x2 : Vec F S4x1x512x512 .f32) (x3 : Vec F S4x1x1x1 .f32) :
    sout0_A_0 c i a1 h1 a2 h2 a3 h3 a4 h4 a5 h5 a6 h6 a7 h7 hc0 hc1 x0 x1 x2 x3 = k0_pay1 (k0_pay4 (F := F)) (k0_pay7 x0 x3 x1 x2) := by
  unfold sout0_A_0
  rw [View.read_writes_eq_canon _ _ _ (scover0_A_0 c i a1 h1 a2 h2 a3 h3 a4 h4 a5 h5 a6 h6 a7 h7 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread,
    View.ld_unit_zero (S := S1x1) hz2, View.ld_unit_zero (S := S4x1x512x512) hz4, View.ld_unit_zero (S := S4x1x1x1) hz4]

/-- First point, the running count: zero was stored and read back, then the block's mask total added. -/
theorem cnt_first (c : Dev nD) (i : grid0.Coords) (a1 : Memref sig .tc .vmem S4x1x512x512 .f32) (h1 : a1.IsWhole) (a2 : Memref sig .tc .vmem S4x1x512x512 .f32) (h2 : a2.IsWhole) (a3 : Memref sig .tc .vmem S4x1x512x512 .f32) (h3 : a3.IsWhole) (a4 : Memref sig .tc .vmem S4x1x1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i) (x0 x1 x2 : Vec F S4x1x512x512 .f32) (x3 : Vec F S4x1x1x1 .f32) :
    sout0_A_1 c i a1 h1 a2 h2 a3 h3 a4 h4 a5 h5 a6 h6 a7 h7 hc0 hc1 x0 x1 x2 x3 = k0_pay2 (k0_pay6 x1 x2) (k0_pay5 (F := F)) := by
  unfold sout0_A_1
  rw [View.read_writes_eq_canon _ _ _ (scover0_A_1 c i a1 h1 a2 h2 a3 h3 a4 h4 a5 h5 a6 h6 a7 h7 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread,
    View.ld_unit_zero (S := S1x1) hz2, View.ld_unit_zero (S := S4x1x512x512) hz4, View.ld_unit_zero (S := S4x1x1x1) hz4]

/-- A middle point, the running sum: what the point before left plus the block's masked-loss total. -/
theorem sum_mid (c : Dev nD) (i : grid0.Coords) (a1 : Memref sig .tc .vmem S4x1x512x512 .f32) (h1 : a1.IsWhole) (a2 : Memref sig .tc .vmem S4x1x512x512 .f32) (h2 : a2.IsWhole) (a3 : Memref sig .tc .vmem S4x1x512x512 .f32) (h3 : a3.IsWhole) (a4 : Memref sig .tc .vmem S4x1x1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i) (x0 x1 x2 : Vec F S4x1x512x512 .f32) (x3 : Vec F S4x1x1x1 .f32) (xs0 xs1 : Vec F S1x1 .f32) :
    sout0_B_0 c i a1 h1 a2 h2 a3 h3 a4 h4 a5 h5 a6 h6 a7 h7 hc0 hc1 x0 x1 x2 x3 xs0 xs1 = k0_pay1 xs0 (k0_pay7 x0 x3 x1 x2) := by
  unfold sout0_B_0
  rw [View.read_writes_eq_canon _ _ _ (scover0_B_0 c i a1 h1 a2 h2 a3 h3 a4 h4 a5 h5 a6 h6 a7 h7 hc0 hc1 x0 x1 x2 x3 xs0 xs1)]
  unfold kernelRun0_B
  dsimp only
  sl_unfold_words
  rw [View.canon_unit_zero hz2]
  simp only [View.readAt_eq_ld, h1.read_unread, h2.read_unread, h3.read_unread, h4.read_unread, h6.read_unread, h7.read_unread,
    View.ld_unit_zero (S := S1x1) hz2, View.ld_unit_zero (S := S4x1x512x512) hz4, View.ld_unit_zero (S := S4x1x1x1) hz4]

/-- A middle point, the running count: what the point before left plus the block's mask total. -/
theorem cnt_mid (c : Dev nD) (i : grid0.Coords) (a1 : Memref sig .tc .vmem S4x1x512x512 .f32) (h1 : a1.IsWhole) (a2 : Memref sig .tc .vmem S4x1x512x512 .f32) (h2 : a2.IsWhole) (a3 : Memref sig .tc .vmem S4x1x512x512 .f32) (h3 : a3.IsWhole) (a4 : Memref sig .tc .vmem S4x1x1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i) (x0 x1 x2 : Vec F S4x1x512x512 .f32) (x3 : Vec F S4x1x1x1 .f32) (xs0 xs1 : Vec F S1x1 .f32) :
    sout0_B_1 c i a1 h1 a2 h2 a3 h3 a4 h4 a5 h5 a6 h6 a7 h7 hc0 hc1 x0 x1 x2 x3 xs0 xs1 = k0_pay2 (k0_pay6 x1 x2) xs1 := by
  unfold sout0_B_1
  rw [View.read_writes_eq_canon _ _ _ (scover0_B_1 c i a1 h1 a2 h2 a3 h3 a4 h4 a5 h5 a6 h6 a7 h7 hc0 hc1 x0 x1 x2 x3 xs0 xs1)]
  unfold kernelRun0_B
  dsimp only
  sl_unfold_words
  rw [View.canon_unit_zero hz2]
  simp only [View.readAt_eq_ld, h1.read_unread, h2.read_unread, h3.read_unread, h4.read_unread, h6.read_unread, h7.read_unread,
    View.ld_unit_zero (S := S1x1) hz2, View.ld_unit_zero (S := S4x1x512x512) hz4, View.ld_unit_zero (S := S4x1x1x1) hz4]

/-- The last point, the running sum: as at a middle point. -/
theorem sum_last (c : Dev nD) (i : grid0.Coords) (a1 : Memref sig .tc .vmem S4x1x512x512 .f32) (h1 : a1.IsWhole) (a2 : Memref sig .tc .vmem S4x1x512x512 .f32) (h2 : a2.IsWhole) (a3 : Memref sig .tc .vmem S4x1x512x512 .f32) (h3 : a3.IsWhole) (a4 : Memref sig .tc .vmem S4x1x1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i) (x0 x1 x2 : Vec F S4x1x512x512 .f32) (x3 : Vec F S4x1x1x1 .f32) (xs0 xs1 : Vec F S1x1 .f32) :
    sout0_C_0 c i a1 h1 a2 h2 a3 h3 a4 h4 a5 h5 a6 h6 a7 h7 hc0 hc1 x0 x1 x2 x3 xs0 xs1 = k0_pay1 xs0 (k0_pay7 x0 x3 x1 x2) := by
  unfold sout0_C_0
  rw [View.read_writes_eq_canon _ _ _ (scover0_C_0 c i a1 h1 a2 h2 a3 h3 a4 h4 a5 h5 a6 h6 a7 h7 hc0 hc1 x0 x1 x2 x3 xs0 xs1)]
  unfold kernelRun0_C
  dsimp only
  sl_unfold_words
  rw [View.canon_unit_zero hz2]
  simp only [View.readAt_eq_ld, h1.read_unread, h2.read_unread, h3.read_unread, h4.read_unread, h6.read_unread, h7.read_unread,
    View.ld_unit_zero (S := S1x1) hz2, View.ld_unit_zero (S := S4x1x512x512) hz4, View.ld_unit_zero (S := S4x1x1x1) hz4]

/-- The last point, the running count: as at a middle point. -/
theorem cnt_last (c : Dev nD) (i : grid0.Coords) (a1 : Memref sig .tc .vmem S4x1x512x512 .f32) (h1 : a1.IsWhole) (a2 : Memref sig .tc .vmem S4x1x512x512 .f32) (h2 : a2.IsWhole) (a3 : Memref sig .tc .vmem S4x1x512x512 .f32) (h3 : a3.IsWhole) (a4 : Memref sig .tc .vmem S4x1x1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i) (x0 x1 x2 : Vec F S4x1x512x512 .f32) (x3 : Vec F S4x1x1x1 .f32) (xs0 xs1 : Vec F S1x1 .f32) :
    sout0_C_1 c i a1 h1 a2 h2 a3 h3 a4 h4 a5 h5 a6 h6 a7 h7 hc0 hc1 x0 x1 x2 x3 xs0 xs1 = k0_pay2 (k0_pay6 x1 x2) xs1 := by
  unfold sout0_C_1
  rw [View.read_writes_eq_canon _ _ _ (scover0_C_1 c i a1 h1 a2 h2 a3 h3 a4 h4 a5 h5 a6 h6 a7 h7 hc0 hc1 x0 x1 x2 x3 xs0 xs1)]
  unfold kernelRun0_C
  dsimp only
  sl_unfold_words
  rw [View.canon_unit_zero hz2]
  simp only [View.readAt_eq_ld, h1.read_unread, h2.read_unread, h3.read_unread, h4.read_unread, h6.read_unread, h7.read_unread,
    View.ld_unit_zero (S := S1x1) hz2, View.ld_unit_zero (S := S4x1x512x512) hz4, View.ld_unit_zero (S := S4x1x1x1) hz4]

/-- The last point, the output block: the quotient of the two accumulators as this point leaves them. -/
theorem out_last (c : Dev nD) (i : grid0.Coords) (a1 : Memref sig .tc .vmem S4x1x512x512 .f32) (h1 : a1.IsWhole) (a2 : Memref sig .tc .vmem S4x1x512x512 .f32) (h2 : a2.IsWhole) (a3 : Memref sig .tc .vmem S4x1x512x512 .f32) (h3 : a3.IsWhole) (a4 : Memref sig .tc .vmem S4x1x1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i) (x0 x1 x2 : Vec F S4x1x512x512 .f32) (x3 : Vec F S4x1x1x1 .f32) (xs0 xs1 : Vec F S1x1 .f32) :
    out0_C_4 c i a1 h1 a2 h2 a3 h3 a4 h4 a5 h5 a6 h6 a7 h7 hc0 hc1 x0 x1 x2 x3 xs0 xs1
      = k0_pay3 (k0_pay1 xs0 (k0_pay7 x0 x3 x1 x2)) (k0_pay2 (k0_pay6 x1 x2) xs1) := by
  unfold out0_C_4
  rw [View.read_writes_eq_canon _ _ _ (cover0_C_4 c i a1 h1 a2 h2 a3 h3 a4 h4 a5 h5 a6 h6 a7 h7 hc0 hc1 x0 x1 x2 x3 xs0 xs1)]
  unfold kernelRun0_C
  dsimp only
  sl_unfold_words
  rw [View.canon_unit_zero hz2]
  simp only [View.readCov_unit_zero (S := S1x1) _ hz2, View.readAt_eq_ld, h1.read_unread, h2.read_unread, h3.read_unread,
    h4.read_unread, h6.read_unread, h7.read_unread,
    View.ld_unit_zero (S := S1x1) hz2, View.ld_unit_zero (S := S4x1x512x512) hz4, View.ld_unit_zero (S := S4x1x1x1) hz4]

end Cert.KernelIdeal.Pieces

end
-- ==== Proof.Chain.lean ====
/-
  The two accumulators of the loss kernel, point by point. After grid point `n` the first scratch buffer holds
  the body's "add the block's masked-loss total" applied `n + 1` times starting from the stored zero, and the
  second one the same for the mask count; after the last point the output block holds the body's quotient of
  the two. This is an induction over the points: each step is one case of the body, read as a value.
-/
import proofs.«147590_j15908558864773_1_alg».proof.Proof.Pieces

noncomputable section

open Idealize.ShloMosaic Idealize.ShloMosaic.TcCoe Idealize.SL.Sem

namespace Cert.KernelIdeal.Chain

open Cert.KernelIdeal Cert.KernelIdeal.Gen

variable {F : FTy → Type} [FloatOps F]
variable (m : (ℓ : Loc nD τ sig) → Buf (Elt F) ℓ)

/-- The four input blocks at a grid point, at their literal types: logits, prostate mask, needle mask, labels. -/
abbrev xblk (c : Dev nD) (t : Fin cfg0.N) : Vec F S4x1x512x512 .f32 := iblk m c 0 t
abbrev pblk (c : Dev nD) (t : Fin cfg0.N) : Vec F S4x1x512x512 .f32 := iblk m c 1 t
abbrev nblk (c : Dev nD) (t : Fin cfg0.N) : Vec F S4x1x512x512 .f32 := iblk m c 2 t
abbrev yblk (c : Dev nD) (t : Fin cfg0.N) : Vec F S4x1x1x1 .f32 := iblk m c 3 t

/-- The running sum of the masked loss after point `n`. -/
def sumAt (c : Dev nD) : (n : ℕ) → n < cfg0.N → Vec F S1x1 .f32
  | 0, h => k0_pay1 (k0_pay4 (F := F)) (k0_pay7 (xblk m c ⟨0, h⟩) (yblk m c ⟨0, h⟩) (pblk m c ⟨0, h⟩) (nblk m c ⟨0, h⟩))
  | n + 1, h => k0_pay1 (sumAt c n (Nat.lt_of_succ_lt h))
      (k0_pay7 (xblk m c ⟨n + 1, h⟩) (yblk m c ⟨n + 1, h⟩) (pblk m c ⟨n + 1, h⟩) (nblk m c ⟨n + 1, h⟩))

/-- The running count of the mask after point `n`. -/
def cntAt (c : Dev nD) : (n : ℕ) → n < cfg0.N → Vec F S1x1 .f32
  | 0, h => k0_pay2 (k0_pay6 (pblk m c ⟨0, h⟩) (nblk m c ⟨0, h⟩)) (k0_pay5 (F := F))
  | n + 1, h => k0_pay2 (k0_pay6 (pblk m c ⟨n + 1, h⟩) (nblk m c ⟨n + 1, h⟩)) (cntAt c n (Nat.lt_of_succ_lt h))

/-- The first point's case of the body at the point's own buffers and blocks. -/
theorem first_at (c : Dev nD) (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t)
        = k0_pay1 (k0_pay4 (F := F)) (k0_pay7 (xblk m c t) (yblk m c t) (pblk m c t) (nblk m c t))
    ∧ sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t)
        = k0_pay2 (k0_pay6 (pblk m c t) (nblk m c t)) (k0_pay5 (F := F)) :=
  ⟨Pieces.sum_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk m c t) (pblk m c t) (nblk m c t) (yblk m c t),
   Pieces.cnt_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk m c t) (pblk m c t) (nblk m c t) (yblk m c t)⟩

/-- A middle point's case likewise, over what the accumulators held. -/
theorem mid_at (c : Dev nD) (t : Fin cfg0.N) (hc0 : ¬cond0_0 (grid0.coords t)) (hc1 : ¬cond0_1 (grid0.coords t))
    (xs0 xs1 : Vec F S1x1 .f32) :
    sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1
        = k0_pay1 xs0 (k0_pay7 (xblk m c t) (yblk m c t) (pblk m c t) (nblk m c t))
    ∧ sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1
        = k0_pay2 (k0_pay6 (pblk m c t) (nblk m c t)) xs1 :=
  ⟨Pieces.sum_mid c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk m c t) (pblk m c t) (nblk m c t) (yblk m c t) xs0 xs1,
   Pieces.cnt_mid c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk m c t) (pblk m c t) (nblk m c t) (yblk m c t) xs0 xs1⟩

/-- The last point's case likewise, with the output block. -/
theorem last_at (c : Dev nD) (t : Fin cfg0.N) (hc0 : ¬cond0_0 (grid0.coords t)) (hc1 : cond0_1 (grid0.coords t))
    (xs0 xs1 : Vec F S1x1 .f32) :
    sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1
        = k0_pay1 xs0 (k0_pay7 (xblk m c t) (yblk m c t) (pblk m c t) (nblk m c t))
    ∧ sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1
        = k0_pay2 (k0_pay6 (pblk m c t) (nblk m c t)) xs1
    ∧ out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1
        = k0_pay3 (k0_pay1 xs0 (k0_pay7 (xblk m c t) (yblk m c t) (pblk m c t) (nblk m c t)))
            (k0_pay2 (k0_pay6 (pblk m c t) (nblk m c t)) xs1) :=
  ⟨Pieces.sum_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk m c t) (pblk m c t) (nblk m c t) (yblk m c t) xs0 xs1,
   Pieces.cnt_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk m c t) (pblk m c t) (nblk m c t) (yblk m c t) xs0 xs1,
   Pieces.out_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (xblk m c t) (pblk m c t) (nblk m c t) (yblk m c t) xs0 xs1⟩

/-- What the two scratch buffers hold after each point: the running sum and the running count. -/
theorem scratch_eq (c : Dev nD) : ∀ (n : ℕ) (h : n < cfg0.N),
    (outsAt0 m c n h).2.1 = sumAt m c n h ∧ (outsAt0 m c n h).2.2 = cntAt m c n h
  | 0, h => by
    rw [outsAt0_A m c ⟨0, h⟩ rfl (show ¬(0 % 8 = 7) by decide)]
    dsimp only
    exact first_at m c ⟨0, h⟩ _ _
  | n + 1, h => by
    have hN : cfg0.N = 8 := N_0
    have ih := scratch_eq c n (Nat.lt_of_succ_lt h)
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1]
      dsimp only
      have hl := last_at m c ⟨n + 1, h⟩ (fun hh => h0 ((hcond0_0 ⟨n + 1, h⟩).mp hh)) ((hcond0_1 ⟨n + 1, h⟩).mpr h1)
        (outsAt0 m c n (Nat.lt_of_succ_lt h)).2.1 (outsAt0 m c n (Nat.lt_of_succ_lt h)).2.2
      refine ⟨hl.1.trans ?_, hl.2.1.trans ?_⟩
      · show k0_pay1 (outsAt0 m c n _).2.1 _ = k0_pay1 (sumAt m c n _) _
        rw [ih.1]
      · show k0_pay2 _ (outsAt0 m c n _).2.2 = k0_pay2 _ (cntAt m c n _)
        rw [ih.2]
    · rw [outsAt0_B m c ⟨n + 1, h⟩ h0 h1]
      dsimp only
      have hl := mid_at m c ⟨n + 1, h⟩ (fun hh => h0 ((hcond0_0 ⟨n + 1, h⟩).mp hh)) (fun hh => h1 ((hcond0_1 ⟨n + 1, h⟩).mp hh))
        (outsAt0 m c n (Nat.lt_of_succ_lt h)).2.1 (outsAt0 m c n (Nat.lt_of_succ_lt h)).2.2
      refine ⟨hl.1.trans ?_, hl.2.trans ?_⟩
      · show k0_pay1 (outsAt0 m c n _).2.1 _ = k0_pay1 (sumAt m c n _) _
        rw [ih.1]
      · show k0_pay2 _ (outsAt0 m c n _).2.2 = k0_pay2 _ (cntAt m c n _)
        rw [ih.2]

/-- After the last point the output's staging block holds the quotient of the two accumulators. -/
theorem out_eq (c : Dev nD) (h : 7 < cfg0.N) :
    (outsAt0 m c 7 h).1 = k0_pay3 (sumAt m c 7 h) (cntAt m c 7 h) := by
  have ih := scratch_eq m c 6 (Nat.lt_of_succ_lt h)
  rw [outsAt0_C m c ⟨7, h⟩ (show ¬(7 % 8 = 0) by decide) rfl]
  dsimp only
  have hl := last_at m c ⟨7, h⟩ (fun hh => absurd ((hcond0_0 ⟨7, h⟩).mp hh) (show ¬(7 % 8 = 0) by decide)) ((hcond0_1 ⟨7, h⟩).mpr rfl)
    (outsAt0 m c 6 (Nat.lt_of_succ_lt h)).2.1 (outsAt0 m c 6 (Nat.lt_of_succ_lt h)).2.2
  refine hl.2.2.trans ?_
  show k0_pay3 (k0_pay1 (outsAt0 m c 6 _).2.1 _) (k0_pay2 _ (outsAt0 m c 6 _).2.2)
    = k0_pay3 (k0_pay1 (sumAt m c 6 _) _) (k0_pay2 _ (cntAt m c 6 _))
  rw [ih.1, ih.2]

end Cert.KernelIdeal.Chain

end
-- ==== Proof.LibTotals.lean ====
/-
  Totals of arrays over the extended reals, where addition is associative and commutative without any finiteness:
  * a reshape permutes the entries and keeps the total (`sum_shapeCast`);
  * the sums a reduction takes along its axes, added up over the kept indices, are the total of the source, whatever the
    axes (`sum_reduceAdd`) — so a chain of partial reductions and reshapes that ends in one entry holds the total;
  * an accumulator that starts at `z` and to which terms `b 0, b 1, …` are added one after the other holds
    `z + (b 0 + … + b n)` after step `n` (`acc`, `acc_eq`): the fold a grid accumulator performs, as a sum.
-/
import Idealize.ShloMosaic.PureOps.Ideal.Laws

noncomputable section

open scoped BigOperators

namespace Cert.LibTotals

open Idealize.ShloMosaic

/-- A reshape keeps the total: it reads the same entries through a bijection of the index sets. -/
theorem sum_shapeCast {s t : Shape} (h : s.ShapeCasts t) (x : s.Idx → EReal) :
    ∑ j : t.Idx, shapeCast t x h j = ∑ i : s.Idx, x i :=
  Equiv.sum_comp (Shape.reshapeEquiv h) x

/-- The sums a reduction takes along its axes, added up over the kept indices, are the total: every source
    index lies over exactly one kept index. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- The running sum: `z + b 0`, then `+ b (n + 1)`. -/
def acc (z : EReal) (b : ℕ → EReal) : ℕ → EReal
  | 0 => z + b 0
  | n + 1 => acc z b n + b (n + 1)

/-- After step `n` the running sum is `z` plus the sum of the first `n + 1` terms. -/
theorem acc_eq (z : EReal) (b : ℕ → EReal) (n : ℕ) : acc z b n = z + ∑ k ∈ Finset.range (n + 1), b k := by
  induction n with
  | zero => simp [acc]
  | succ n ih => rw [acc, ih, Finset.sum_range_succ _ (n + 1), add_assoc]

end Cert.LibTotals

end
-- ==== Proof.BlockSums.lean ====
/-
  The index sets of this kernel's arrays, regrouped (over the extended reals; the general facts about totals are in
  Proof/LibTotals.lean):
  * the total of a [32,1,512,512] array is the sum over its eight blocks of four leading rows of each block's total;
  * eight terms accumulated one after the other from `z` give `z` plus their sum.
  Also: a one-bit word widened to 32 bits and read signed is the bit read unsigned.
-/
import Idealize.ShloMosaic.Lib.ValueIdx
import proofs.«147590_j15908558864773_1_alg».proof.Proof.LibTotals

noncomputable section

open scoped BigOperators

namespace Cert.BlockSums

open Idealize.ShloMosaic Idealize.ShloMosaic.ValueIdx

export Cert.LibTotals (sum_shapeCast sum_reduceAdd acc acc_eq)

/-- The whole array's shape and one block's. -/
abbrev SA : Shape := ⟨4, ![32, 1, 512, 512]⟩
abbrev SB : Shape := ⟨4, ![4, 1, 512, 512]⟩

/-- Entry `j` of block `t` is entry `(4 t + j₀, j₁, j₂, j₃)` of the array. -/
def blockIdx (t : Fin 8) (j : SB.Idx) : SA.Idx :=
  ix4 ⟨4 * t.val + (j 0).val, by have h0 : (j 0).val < 4 := (j 0).isLt; have := t.isLt; omega⟩ (j 1) (j 2) (j 3)

/-- The array's indices are the pairs (block, index inside the block). -/
def blockEquiv : Fin 8 × SB.Idx ≃ SA.Idx where
  toFun p := blockIdx p.1 p.2
  invFun g := (⟨(g 0).val / 4, by have h0 : (g 0).val < 32 := (g 0).isLt; omega⟩,
    ix4 ⟨(g 0).val % 4, Nat.mod_lt _ (by decide)⟩ (g 1) (g 2) (g 3))
  left_inv p := by
    obtain ⟨t, j⟩ := p
    have h0 : (j 0).val < 4 := (j 0).isLt
    refine Prod.ext (Fin.ext ?_) (funext fun a => ?_)
    · show (4 * t.val + (j 0).val) / 4 = t.val
      omega
    · match a with
      | ⟨0, _⟩ => exact Fin.ext (by show (4 * t.val + (j 0).val) % 4 = (j 0).val; omega)
      | ⟨1, _⟩ => rfl
      | ⟨2, _⟩ => rfl
      | ⟨3, _⟩ => rfl
  right_inv g := by
    funext a
    match a with
    | ⟨0, _⟩ => exact Fin.ext (by show 4 * ((g 0).val / 4) + (g 0).val % 4 = (g 0).val; omega)
    | ⟨1, _⟩ => rfl
    | ⟨2, _⟩ => rfl
    | ⟨3, _⟩ => rfl

/-- The total over the array is the sum over the blocks of the blocks' totals. -/
theorem sum_blocks (f : SA.Idx → EReal) : ∑ g : SA.Idx, f g = ∑ t : Fin 8, ∑ j : SB.Idx, f (blockIdx t j) := by
  rw [← Equiv.sum_comp blockEquiv f, Fintype.sum_prod_type]
  rfl

/-- Eight terms given on `Fin 8`, as a function on the naturals (zero past the end). -/
def ext8 (B : Fin 8 → EReal) (k : ℕ) : EReal := if h : k < 8 then B ⟨k, h⟩ else 0

theorem ext8_of_lt (B : Fin 8 → EReal) (k : ℕ) (h : k < 8) : ext8 B k = B ⟨k, h⟩ := dif_pos h

/-- After the eighth step the running sum over `ext8 B` is `z + ∑ t, B t`. -/
theorem acc_ext8 (z : EReal) (B : Fin 8 → EReal) : acc z (ext8 B) 7 = z + ∑ t : Fin 8, B t := by
  rw [acc_eq, Finset.sum_range (fun k => ext8 B k)]
  exact congrArg (z + ·) (Finset.sum_congr rfl fun t _ => ext8_of_lt B t.val t.isLt)

/-- A one-bit word widened to 32 bits and read as a signed integer is the bit read as a natural number. -/
theorem toInt_setWidth_bit (b : BitVec 1) : ((b.setWidth 32).toInt : ℝ) = ((b.toNat : ℕ) : ℝ) := by
  have h : ∀ b : BitVec 1, (b.setWidth 32).toInt = (b.toNat : ℤ) := by decide
  rw [h b]; simp

end Cert.BlockSums

end
-- ==== Proof.LossSpec.lean ====
/-
  The masked binary-cross-entropy loss, entry by entry and as one number, over the extended reals.
  For a logit `x`, a label `y` and the two mask values `p`, `n`:
    mask  = 1 if p > 1/2 and n > 1/2, else 0
    loss  = max(x, 0) − x·y + log(1 + exp(−|x|))
  and the result is  (0 + Σ loss·mask) / max(0 + Σ mask, 1), both sums over every entry of the [32,1,512,512]
  arrays, the label of entry (b, ·, ·, ·) being entry b of the label vector. The float constants are kept as the
  words the two programs print; none of them needs to be evaluated.
-/
import proofs.«147590_j15908558864773_1_alg».proof.Proof.BlockSums

noncomputable section

open scoped BigOperators

namespace Cert.LossSpec

open Idealize.ShloMosaic Idealize.ShloMosaic.ValueIdx Cert.BlockSums

/-- The constants 0, 1/2 and 1 as the programs print them. -/
abbrev zero32 : EReal := Ideal.ofBits .f32 0x00000000#32
abbrev half32 : EReal := Ideal.ofBits .f32 0x3F000000#32
abbrev one32 : EReal := Ideal.ofBits .f32 0x3F800000#32

/-- The mask bit of an entry: both mask values above one half. -/
def maskBit (p n : EReal) : BitVec 1 := IntOp.andi (Ideal.cmp .ogt p half32) (Ideal.cmp .ogt n half32)

/-- The mask of an entry as a number: 0 or 1. -/
def maskAt (p n : EReal) : EReal := (((maskBit p n).toNat : ℝ) : EReal)

/-- The loss of an entry before masking. -/
def lossAt (x y : EReal) : EReal := (max x zero32 - x * y) + Ideal.log1p (Ideal.exp (-(max x (-x))))

/-- The label index of an array entry: its leading coordinate. -/
def labIdx (g : SA.Idx) : (⟨1, ![32]⟩ : Shape).Idx := fun a => match a with | ⟨0, _⟩ => ⟨(g 0).val, (g 0).isLt⟩

/-- The masked mean loss of the four arrays. -/
def meanLoss (x : SA.Idx → EReal) (y : (⟨1, ![32]⟩ : Shape).Idx → EReal) (p n : SA.Idx → EReal) : EReal :=
  Ideal.div (zero32 + ∑ g : SA.Idx, lossAt (x g) (y (labIdx g)) * maskAt (p g) (n g))
    (max (zero32 + ∑ g : SA.Idx, maskAt (p g) (n g)) one32)

/-- The masked loss total and the mask count of block `t` (entries `4 t … 4 t + 3` of the leading axis). -/
def blockLoss (x : SA.Idx → EReal) (y : (⟨1, ![32]⟩ : Shape).Idx → EReal) (p n : SA.Idx → EReal) (t : Fin 8) : EReal :=
  ∑ j : SB.Idx, lossAt (x (blockIdx t j)) (y (labIdx (blockIdx t j))) * maskAt (p (blockIdx t j)) (n (blockIdx t j))
def blockCount (p n : SA.Idx → EReal) (t : Fin 8) : EReal :=
  ∑ j : SB.Idx, maskAt (p (blockIdx t j)) (n (blockIdx t j))

/-- Accumulating the eight blocks' totals one after the other from zero, and dividing at the end, gives the mean
    loss: addition of extended reals is associative and commutative, so the grouping into blocks and the order
    of accumulation do not matter. -/
theorem meanLoss_eq_acc (x : SA.Idx → EReal) (y : (⟨1, ![32]⟩ : Shape).Idx → EReal) (p n : SA.Idx → EReal) :
    Ideal.div (acc zero32 (ext8 (blockLoss x y p n)) 7) (max (acc zero32 (ext8 (blockCount p n)) 7) one32)
      = meanLoss x y p n := by
  rw [acc_ext8, acc_ext8]
  unfold meanLoss blockLoss blockCount
  rw [sum_blocks (fun g => lossAt (x g) (y (labIdx g)) * maskAt (p g) (n g)), sum_blocks (fun g => maskAt (p g) (n g))]

/-- A kernel's mask entry — the bit widened to 32 bits and converted as a signed integer — is the mask. -/
theorem sitofp_mask (p n : EReal) :
    FloatOps.sitofp (F := Ideal) .f32 ((maskBit p n).setWidth 32) = maskAt p n := by
  show (((((maskBit p n).setWidth 32).toInt : ℝ)) : EReal) = _
  rw [toInt_setWidth_bit]
  rfl

/-- Zero minus `a` is `−a`. -/
theorem zero32_sub (a : EReal) : zero32 - a = -a := by
  show Ideal.ofBits .f32 0x00000000#32 - a = -a
  rw [Ideal.ofBits_zero_f32, zero_sub]

end Cert.LossSpec

end
-- ==== Proof.Payloads.lean ====
/-
  The loss kernel's arithmetic read at the exact (extended-real) values. The body forms, per entry of a block,
  the loss times the mask, and totals a block by three nested sums (along the last axis, then the rows, then the four
  leading entries) with reshapes between; the totals are added to one-entry accumulators, and the last step divides
  the loss accumulator by the larger of the count accumulator and one.
-/
import proofs.«147590_j15908558864773_1_alg».proof.Proof.Gen.KernelIdeal.Skeleton
import proofs.«147590_j15908558864773_1_alg».proof.Proof.LossSpec
import Idealize.ShloMosaic.Lib.Pipeline.Value

noncomputable section

open scoped BigOperators

namespace Cert.KernelIdeal.Payloads

open Idealize.ShloMosaic Idealize.ShloMosaic.ValueIdx
open Cert.KernelIdeal Cert.KernelIdeal.Gen Cert.BlockSums Cert.LossSpec

/-- Inside a block the label of entry (b, ·, ·, ·) is entry (b, 0, 0, 0) of the block of labels. -/
def lab4 (j : S4x1x512x512.Idx) : S4x1x1x1.Idx := fun a => match a with
  | ⟨0, _⟩ => ⟨(j 0).val, (j 0).isLt⟩
  | ⟨1, _⟩ => ⟨0, Nat.one_pos⟩
  | ⟨2, _⟩ => ⟨0, Nat.one_pos⟩
  | ⟨3, _⟩ => ⟨0, Nat.one_pos⟩

/-- The stored zeros. -/
theorem pay4_apply (i : S1x1.Idx) : k0_pay4 (F := Ideal) i = zero32 := rfl
theorem pay5_apply (i : S1x1.Idx) : k0_pay5 (F := Ideal) i = zero32 := rfl

/-- The final quotient. -/
theorem pay3_apply (v54 v55 : Vec Ideal S1x1 .f32) (i : S1x1.Idx) :
    k0_pay3 v54 v55 i = Ideal.div (v54 i) (max (v55 i) one32) := rfl

/-- The body's three nested sums of a block — along the last axis, then over the rows, then (in `lead_total`)
    over the four leading entries, with reshapes between — add up to the block's total: each step keeps it. -/
theorem nested_total (v : FVec Ideal S4x1x512x512 .f32) (r3 : S4x1x512x512.Reduces [3] S4x1x512)
    (c3 : S4x1x512.ShapeCasts S4x1x512x1) (r2 : S4x1x512x1.Reduces [2] S4x1x1) (c2 : S4x1x1.ShapeCasts S4x1x1x1)
    (hφ : FKind.Formats .f32) (hacc : (0x00000000#32 : BitVec 32) = FKind.add.neutral .f32 hφ) :
    ∑ j : S4x1x1x1.Idx, (shapeCast S4x1x1x1 (multiReduction .add [2] S4x1x1 (shapeCast S4x1x512x1
      (multiReduction .add [3] S4x1x512 v 0x00000000#32 r3 hφ hacc) c3) 0x00000000#32 r2 hφ hacc) c2) j
      = ∑ i, v i := by
  rw [sum_shapeCast]
  show ∑ j, Ideal.reduceAdd r2 _ j = _
  rw [sum_reduceAdd, sum_shapeCast]
  show ∑ j, Ideal.reduceAdd r3 _ j = _
  rw [sum_reduceAdd]

/-- The last of the nested sums, into a one-entry vector, is the total of what it is given. -/
theorem lead_total (w : FVec Ideal S4x1x1x1 .f32) (r0 : S4x1x1x1.Reduces [0] S1x1x1)
    (c1 : S1x1x1.ShapeCasts S1x1x1x1) (c0 : S1x1x1x1.ShapeCasts S1x1)
    (hφ : FKind.Formats .f32) (hacc : (0x00000000#32 : BitVec 32) = FKind.add.neutral .f32 hφ) (i : S1x1.Idx) :
    shapeCast S1x1 (shapeCast S1x1x1x1 (multiReduction .add [0] S1x1x1 w 0x00000000#32 r0 hφ hacc) c1) c0 i = ∑ j, w j := by
  unfold shapeCast
  exact Ideal.multiReduction_add_total w _ r0 (by decide) hφ hacc _

/-- The loss accumulator's update: what it held plus the total of the four per-row sums it is given. -/
theorem pay1_apply (v26 : Vec Ideal S1x1 .f32) (v31 : FVec Ideal S4x1x1x1 .f32) (i : S1x1.Idx) :
    k0_pay1 v26 v31 i = v26 i + ∑ j, v31 j := by
  unfold k0_pay1
  simp only [shapeCast_self, addf_apply]
  exact congrArg (v26 i + ·) (lead_total v31 _ _ _ _ _ i)

/-- The count accumulator's update: what it held plus the block's mask total. -/
theorem pay2_apply (v14 : FVec Ideal S4x1x512x512 .f32) (v39 : Vec Ideal S1x1 .f32) (i : S1x1.Idx) :
    k0_pay2 v14 v39 i = v39 i + ∑ j, v14 j := by
  unfold k0_pay2
  simp only [shapeCast_self, addf_apply]
  refine congrArg (v39 i + ·) ((lead_total _ _ _ _ _ _ i).trans ?_)
  exact nested_total v14 _ _ _ _ _ _

/-- A mask entry as the body forms it. -/
theorem pay6_apply (v6 v7 : Vec Ideal S4x1x512x512 .f32) (i : S4x1x512x512.Idx) :
    k0_pay6 v6 v7 i = maskAt (v6 i) (v7 i) := by
  unfold k0_pay6
  exact sitofp_mask (v6 i) (v7 i)

/-- The label a block entry is multiplied with: the broadcast of the block of labels reads entry (b, 0, 0, 0). -/
theorem label_bcast (v4 : Vec Ideal S4x1x1x1 .f32) (h : S4x1x1x1.Broadcasts S4x1x512x512) (i : S4x1x512x512.Idx) :
    broadcastTo S4x1x512x512 v4 h i = v4 (lab4 i) :=
  broadcastTo_apply v4 h i (lab4 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl])

/-- The four per-row sums the body hands to the loss accumulator add up to the block's total of loss times mask. -/
theorem pay7_total (v3 v6 v7 : Vec Ideal S4x1x512x512 .f32) (v4 : Vec Ideal S4x1x1x1 .f32) :
    ∑ j : S4x1x1x1.Idx, (k0_pay7 v3 v4 v6 v7 j : EReal)
      = ∑ i : S4x1x512x512.Idx, lossAt (v3 i) (v4 (lab4 i)) * maskAt (v6 i) (v7 i) := by
  unfold k0_pay7
  simp only [shapeCast_self]
  refine (nested_total _ _ _ _ _ _ _).trans ?_
  refine Finset.sum_congr rfl fun i _ => ?_
  rw [mulf_apply, pay6_apply]
  refine congrArg (· * maskAt (v6 i) (v7 i)) ?_
  show (max (v3 i) zero32 - v3 i * broadcastTo S4x1x512x512 v4 broadcasts_S4x1x1x1_S4x1x512x512 i)
      + Ideal.log1p (Ideal.exp (zero32 - max (v3 i) (-(v3 i)))) = lossAt (v3 i) (v4 (lab4 i))
  rw [label_bcast, zero32_sub]
  rfl

end Cert.KernelIdeal.Payloads

end
-- ==== Proof.KernelValue.lean ====
/-
  The value of the loss kernel's run at the exact (extended-real) values: its scalar result is the masked mean
  loss of the four argument arrays.
  * Block `t` of each [32,1,512,512] operand, as the kernel's window reads it at grid point `t`, is the array's
    entries `(4 t + j₀, j₁, j₂, j₃)`; the labels reach the kernel reshaped to [32,1,1,1], so the label read beside
    entry `j` of block `t` is entry `4 t + j₀` of the label vector.
  * Hence what point `t` adds to the two accumulators is block `t`'s total of loss·mask and of the mask, and after
    the eighth point they hold zero plus the eight block totals added in order.
  * The last point stores their quotient `sum / max(count, 1)` into the output block, which is written back then and
    only then and is the whole one-entry output array; the host operation after the call reshapes it to a scalar.
  * Regrouping the eight block totals into the total over the whole arrays gives the masked mean loss.
-/
import proofs.«147590_j15908558864773_1_alg».proof.Proof.Chain
import proofs.«147590_j15908558864773_1_alg».proof.Proof.Payloads
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Chain Cert.KernelIdeal.Payloads Cert.BlockSums Cert.LossSpec

variable (m : (ℓ : Loc nD τ sig) → Buf (Elt Ideal) ℓ) (ρ : Dev nD → PrngReg)

/-- The grid point as a block number. -/
def blk8 (t : Fin cfg0.N) : Fin 8 := ⟨t.val, lt_of_lt_of_eq t.isLt (show cfg0.N = 8 from N_0)⟩

/-- Every window's block index at point `t` is `(t, 0, 0, 0)`. -/
theorem idx0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)
theorem idx2 : ∀ t : Fin cfg0.N, win0_2.index t 0 = t.val ∧ win0_2.index t 1 = 0 ∧ win0_2.index t 2 = 0 ∧ win0_2.index t 3 = 0 :=
  (by decide +kernel : ∀ t : Fin grid0.N, win0_2.index t 0 = t.val ∧ win0_2.index t 1 = 0 ∧ win0_2.index t 2 = 0 ∧ win0_2.index t 3 = 0)
theorem idx3 : ∀ t : Fin cfg0.N, win0_3.index t 0 = t.val ∧ win0_3.index t 1 = 0 ∧ win0_3.index t 2 = 0 ∧ win0_3.index t 3 = 0 :=
  (by decide +kernel : ∀ t : Fin grid0.N, win0_3.index t 0 = t.val ∧ win0_3.index t 1 = 0 ∧ win0_3.index t 2 = 0 ∧ win0_3.index t 3 = 0)

/-- Entry `j` of the logits block at point `t` is entry `(4 t + j₀, j₁, j₂, j₃)` of the logits. -/
theorem xblk_apply (c : Dev nD) (t : Fin cfg0.N) (j : S4x1x512x512.Idx) :
    xblk m c t j = m ((c : Thread nD τ).loc main_arg0) (blockIdx (blk8 t) j) := by
  obtain ⟨h0, h1, h2, h3⟩ := idx0 t
  unfold xblk iblk
  rw [View.read_apply]
  show V m c main_arg0 _ = _
  rw [V_main_arg0]
  congr 1
  funext a
  apply Fin.ext
  match a with
  | ⟨0, _⟩ => show win0_0.index t 0 * 4 + 1 * (j 0).val = 4 * t.val + (j 0).val; rw [h0]; omega
  | ⟨1, _⟩ => show win0_0.index t 1 * 1 + 1 * (j 1).val = (j 1).val; rw [h1]; omega
  | ⟨2, _⟩ => show win0_0.index t 2 * 512 + 1 * (j 2).val = (j 2).val; rw [h2]; omega
  | ⟨3, _⟩ => show win0_0.index t 3 * 512 + 1 * (j 3).val = (j 3).val; rw [h3]; omega

/-- The same for the prostate mask (the kernel's second operand, the program's third argument). -/
theorem pblk_apply (c : Dev nD) (t : Fin cfg0.N) (j : S4x1x512x512.Idx) :
    pblk m c t j = m ((c : Thread nD τ).loc main_arg2) (blockIdx (blk8 t) j) := by
  obtain ⟨h0, h1, h2, h3⟩ := idx1 t
  unfold pblk iblk
  rw [View.read_apply]
  show V m c main_arg2 _ = _
  rw [V_main_arg2]
  congr 1
  funext a
  apply Fin.ext
  match a with
  | ⟨0, _⟩ => show win0_1.index t 0 * 4 + 1 * (j 0).val = 4 * t.val + (j 0).val; rw [h0]; omega
  | ⟨1, _⟩ => show win0_1.index t 1 * 1 + 1 * (j 1).val = (j 1).val; rw [h1]; omega
  | ⟨2, _⟩ => show win0_1.index t 2 * 512 + 1 * (j 2).val = (j 2).val; rw [h2]; omega
  | ⟨3, _⟩ => show win0_1.index t 3 * 512 + 1 * (j 3).val = (j 3).val; rw [h3]; omega

/-- The same for the needle mask (the kernel's third operand, the program's fourth argument). -/
theorem nblk_apply (c : Dev nD) (t : Fin cfg0.N) (j : S4x1x512x512.Idx) :
    nblk m c t j = m ((c : Thread nD τ).loc main_arg3) (blockIdx (blk8 t) j) := by
  obtain ⟨h0, h1, h2, h3⟩ := idx2 t
  unfold nblk iblk
  rw [View.read_apply]
  show V m c main_arg3 _ = _
  rw [V_main_arg3]
  congr 1
  funext a
  apply Fin.ext
  match a with
  | ⟨0, _⟩ => show win0_2.index t 0 * 4 + 1 * (j 0).val = 4 * t.val + (j 0).val; rw [h0]; omega
  | ⟨1, _⟩ => show win0_2.index t 1 * 1 + 1 * (j 1).val = (j 1).val; rw [h1]; omega
  | ⟨2, _⟩ => show win0_2.index t 2 * 512 + 1 * (j 2).val = (j 2).val; rw [h2]; omega
  | ⟨3, _⟩ => show win0_2.index t 3 * 512 + 1 * (j 3).val = (j 3).val; rw [h3]; omega

/-- The labels reach the kernel reshaped from [32] to [32,1,1,1] by the one host operation before the call. -/
theorem V_labels (c : Dev nD) : (V m c main_v0 : S32x1x1x1.Idx → EReal)
    = shapeCast S32x1x1x1 (m ((c : Thread nD τ).loc main_arg1)) shapeCasts_S32_S32x1x1x1 := by
  show StableHlo.after hostOps0 (fun b => m (c, b)) (Proc.devRef .tc main_v0) = _
  after_results
  rfl

/-- The label multiplied with entry `j` of block `t` is the label of array entry `(4 t + j₀, …)`: entry `4 t + j₀`
    of the label vector, through the reshape. -/
theorem yblk_apply (c : Dev nD) (t : Fin cfg0.N) (j : S4x1x512x512.Idx) :
    yblk m c t (lab4 j) = m ((c : Thread nD τ).loc main_arg1) (labIdx (blockIdx (blk8 t) j)) := by
  obtain ⟨h0, h1, h2, h3⟩ := idx3 t
  unfold yblk iblk
  rw [View.read_apply]
  show V m c main_v0 _ = _
  refine (congrFun (V_labels m c) _).trans ?_
  refine shapeCast_apply _ _ _ _ ?_
  show ((⟨1, ![32]⟩ : Shape).rowMajor (labIdx (blockIdx (blk8 t) j))).val
    = ((⟨4, ![32, 1, 1, 1]⟩ : Shape).rowMajor (((cfg0.win 3).blk t).view.emb (lab4 j))).val
  rw [Shape.rowMajor_val_one, Shape.rowMajor_val_four]
  show 4 * t.val + (j 0).val = (((win0_3.index t 0 * 4 + 1 * (j 0).val) * 1 + (win0_3.index t 1 * 1 + 1 * 0)) * 1
    + (win0_3.index t 2 * 1 + 1 * 0)) * 1 + (win0_3.index t 3 * 1 + 1 * 0)
  rw [h0, h1, h2, h3]; omega

/-- The four argument arrays as functions of the launch memory. -/
abbrev Xa (c : Dev nD) : SA.Idx → EReal := m ((c : Thread nD τ).loc main_arg0)
abbrev Ya (c : Dev nD) : (⟨1, ![32]⟩ : Shape).Idx → EReal := m ((c : Thread nD τ).loc main_arg1)
abbrev Pa (c : Dev nD) : SA.Idx → EReal := m ((c : Thread nD τ).loc main_arg2)
abbrev Na (c : Dev nD) : SA.Idx → EReal := m ((c : Thread nD τ).loc main_arg3)

/-- What point `t` adds to the loss accumulator is block `t`'s masked-loss total. -/
theorem blockLoss_eq (c : Dev nD) (t : Fin cfg0.N) :
    ∑ j : S4x1x1x1.Idx, (k0_pay7 (xblk m c t) (yblk m c t) (pblk m c t) (nblk m c t) j : EReal)
      = blockLoss (Xa m c) (Ya m c) (Pa m c) (Na m c) (blk8 t) := by
  rw [pay7_total]
  unfold blockLoss
  refine Finset.sum_congr rfl fun j _ => ?_
  rw [xblk_apply, yblk_apply, pblk_apply, nblk_apply]

/-- What point `t` adds to the count accumulator is block `t`'s mask total. -/
theorem blockCount_eq (c : Dev nD) (t : Fin cfg0.N) :
    ∑ j : S4x1x512x512.Idx, (k0_pay6 (pblk m c t) (nblk m c t) j : EReal)
      = blockCount (Pa m c) (Na m c) (blk8 t) := by
  unfold blockCount
  refine Finset.sum_congr rfl fun j _ => ?_
  rw [pay6_apply, pblk_apply, nblk_apply]

/-- The loss accumulator after point `n`: zero plus the first `n + 1` blocks' totals, added in order. -/
theorem sumAt_eq (c : Dev nD) : ∀ (n : ℕ) (h : n < cfg0.N) (i : S1x1.Idx),
    sumAt m c n h i = acc zero32 (ext8 (blockLoss (Xa m c) (Ya m c) (Pa m c) (Na m c))) n
  | 0, h, i => by
    show k0_pay1 _ _ i = _
    rw [pay1_apply, pay4_apply, blockLoss_eq]
    show _ = zero32 + ext8 _ 0
    rw [ext8_of_lt _ 0 (by decide)]
    rfl
  | n + 1, h, i => by
    have h8 : n + 1 < 8 := lt_of_lt_of_eq h (show cfg0.N = 8 from N_0)
    show k0_pay1 _ _ i = _
    rw [pay1_apply, sumAt_eq c n (Nat.lt_of_succ_lt h) i, blockLoss_eq]
    show _ = acc _ _ n + ext8 _ (n + 1)
    rw [ext8_of_lt _ (n + 1) h8]
    rfl

/-- The count accumulator after point `n` likewise. -/
theorem cntAt_eq (c : Dev nD) : ∀ (n : ℕ) (h : n < cfg0.N) (i : S1x1.Idx),
    cntAt m c n h i = acc zero32 (ext8 (blockCount (Pa m c) (Na m c))) n
  | 0, h, i => by
    show k0_pay2 _ _ i = _
    rw [pay2_apply, pay5_apply, blockCount_eq]
    show _ = zero32 + ext8 _ 0
    rw [ext8_of_lt _ 0 (by decide)]
    rfl
  | n + 1, h, i => by
    have h8 : n + 1 < 8 := lt_of_lt_of_eq h (show cfg0.N = 8 from N_0)
    show k0_pay2 _ _ i = _
    rw [pay2_apply, cntAt_eq c n (Nat.lt_of_succ_lt h) i, blockCount_eq]
    show _ = acc _ _ n + ext8 _ (n + 1)
    rw [ext8_of_lt _ (n + 1) h8]
    rfl

theorem seven_lt : 7 < cfg0.N := by rw [show cfg0.N = 8 from N_0]; decide

/-- The one-entry output array as the last point leaves it: the quotient of the two accumulators. -/
def outArr (c : Dev nD) : Buf (Elt Ideal) ((c : Thread nD τ).loc main_v1) :=
  k0_pay3 (sumAt m c 7 seven_lt) (cntAt m c 7 seven_lt)

/-- The last point writes the output block back, and that block is the whole one-entry array: it is what the
    last point's body left. -/
theorem flushed_eq (c : Dev nD) (t : Fin cfg0.N) (hf : (cfg0.win 4).flush t = true) :
    (dats m 0 c).flushed 4 t = ((cfg0.win 4).blk t).view.read (Elt Ideal) (outArr m c) := by
  have hN : cfg0.N = 8 := N_0
  have h7 : t.val = 7 := by have := (flush0_4 t).mp hf; have := t.isLt; omega
  obtain rfl : t = ⟨7, seven_lt⟩ := Fin.ext h7
  have e : (dats m 0 c).after 4 ⟨7, seven_lt⟩ = outArr m c := (after0_4 m c ⟨7, seven_lt⟩).trans (out_eq m c seven_lt)
  show (cfg0.win 4).cut (grid0.coords ⟨7, seven_lt⟩) ((dats m 0 c).after 4 ⟨7, seven_lt⟩) = _
  rw [e]
  have hz' : (fun a => win0_4.index ⟨7, seven_lt⟩ a * main_v1.ty.shape.size a) = fun _ => 0 :=
    funext fun a => by fin_cases a <;> decide +kernel
  exact (Memref.read_access_unit_zero (Elt Ideal) main_v1 hz' (fun a => by rw [congrFun hz' a]; simp) (outArr m c)).symm

/-- So the output array ends holding that quotient: the one write-back covers its one entry. -/
theorem final_out (c : Dev nD) : (dats m 0 c).arrAt 4 cfg0.N = outArr m c :=
  (dats m 0 c).arrAt_eq_of_cover 4 (outArr m c) (flushed_eq m c) fun i =>
    ⟨⟨7, seven_lt⟩, (flush0_4 ⟨7, seven_lt⟩).mpr rfl, by
      show i ∈ ((View.whole main_v1).slice (win0_4.rect ⟨7, seven_lt⟩)).set
      rw [View.set_slice_whole, Rect.mem_set_unit]
      intro a
      have e0 : win0_4.index ⟨7, seven_lt⟩ a * win0_4.size a = 0 := by fin_cases a <;> decide +kernel
      have e1 : win0_4.xsize (grid0.coords ⟨7, seven_lt⟩) a = 1 := by fin_cases a <;> decide +kernel
      have hi : (i a : Nat) < 1 := by fin_cases a <;> exact (i _).isLt
      show win0_4.index ⟨7, seven_lt⟩ a * win0_4.size a ≤ (i a : Nat)
        ∧ (i a : Nat) < win0_4.index ⟨7, seven_lt⟩ a * win0_4.size a + win0_4.xsize (grid0.coords ⟨7, seven_lt⟩) a
      rw [e0, e1]; omega⟩

/-- The host operation after the call reshapes the one-entry array to a scalar. -/
theorem tail_eq (c : Dev nD) :
    Pipeline.afterTail₀ cfgs (dats m) 0 (V0 m) [hostOps1] c main_v2 = shapeCast S_ (outArr m c) shapeCasts_S1x1_S_ := by
  have hw : Pipeline.withArrays (cfgs 0).spec c (V0 m c) (fun w => (dats m 0 c).arrAt w (cfgs 0).N) (Proc.tc.devRef main_v1)
      = outArr m c := (Pipeline.withArrays_arr spec0 launch0.win.arr_inj c _ _ 4).trans (final_out m c)
  unfold Pipeline.afterTail₀
  show StableHlo.after hostOps1 _ (Proc.devRef .tc main_v2) = _
  after_results
  funext i
  show shapeCast S_ (Pipeline.withArrays (cfgs 0).spec c (V0 m c) (fun w => (dats m 0 c).arrAt w (cfgs 0).N) (Proc.tc.devRef main_v1)) shapeCasts_S1x1_S_ i = _
  rw [hw]

/-- The scalar result is the masked mean loss of the four argument arrays. -/
theorem result_eq (c : Dev nD) :
    (shapeCast S_ (outArr m c) shapeCasts_S1x1_S_ : S_.Idx → EReal)
      = fun _ => meanLoss (Xa m c) (Ya m c) (Pa m c) (Na m c) := by
  funext i
  unfold shapeCast
  show k0_pay3 _ _ _ = _
  rw [pay3_apply, sumAt_eq, cntAt_eq, meanLoss_eq_acc]

/-- The kernel's run, read: the scalar result at the masked mean loss of the arguments, the arguments unchanged. -/
theorem run : θ_run defs (onTc (τ := τ) (main (F := Ideal))) ⟨m, fun _ => 0, ρ⟩ fun r => ∀ c : Dev nD,
      r.2.mem ((c : Thread nD τ).loc main_v2) = (fun _ => meanLoss (Xa m c) (Ya m c) (Pa m c) (Na m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v2 (Pipeline.mem_restRefs_of main_v2 (by decide) (by decide))).trans ((tail_eq m c).trans (result_eq m c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).1 2).trans (((dats m 0 c).arrAt_in 2 rfl _).trans ((A_eq m c 2).trans (V_main_arg3 m c)))⟩)
    (run_main m ρ)

end Cert.KernelIdeal.KValue

end
-- ==== Proof.RefValue.lean ====
/-
  The reference's run at the exact (extended-real) values: the composed term of its twenty-eight host operations is
  the masked mean loss of the four argument arrays. Entry by entry the reference forms the same mask (both mask values
  above one half, converted to 0 or 1) and the same loss `max(x,0) − x·y + log(1 + exp(−|x|))`, the label broadcast
  along the three trailing axes; its two sums run over every entry from zero; the result is their quotient with the
  count raised to at least one.
-/
import proofs.«147590_j15908558864773_1_alg».proof.Proof.Gen.ReferenceIdeal.Read
import proofs.«147590_j15908558864773_1_alg».proof.Proof.LossSpec

noncomputable section

open scoped BigOperators

namespace Cert.ReferenceIdeal.RefValue

open Idealize.ShloMosaic Idealize.ShloMosaic.ValueIdx
open Cert.ReferenceIdeal Cert.ReferenceIdeal.Gen Cert.ReferenceIdeal.Read Cert.BlockSums Cert.LossSpec

/-- The label read beside an array entry: the two broadcasts compose to the entry's leading coordinate. -/
theorem lab_idx (i : S32x1x512x512.Idx) : idx_main_v5 (idx_main_v8 i) = labIdx i :=
  funext fun a => match a with | ⟨0, _⟩ => rfl

/-- The reference's mask at an entry. -/
theorem mask_apply (x2 x3 : S32x1x512x512.Idx → EReal) (i : S32x1x512x512.Idx) :
    val_main_v16 (F := Ideal) x2 x3 i = maskAt (x2 i) (x3 i) := by
  rw [val_main_v16_apply, val_main_v4_apply, val_main_v1_apply, val_main_v3_apply, val_main_v0_apply, val_main_v2_apply,
    val_main_cst_apply, val_main_cst_0_apply]
  rfl

/-- The reference's masked loss at an entry. -/
theorem term_apply (x0 : S32x1x512x512.Idx → EReal) (x1 : S32.Idx → EReal) (x2 x3 : S32x1x512x512.Idx → EReal) (i : S32x1x512x512.Idx) :
    val_main_v19 (F := Ideal) x0 x1 x2 x3 i = lossAt (x0 i) (x1 (labIdx i)) * maskAt (x2 i) (x3 i) := by
  rw [val_main_v19_apply, mask_apply, val_main_v15_apply, val_main_v10_apply, val_main_v7_apply, val_main_v9_apply,
    val_main_v8_apply, val_main_v5_apply, lab_idx, val_main_v6_apply, val_main_cst_1_apply,
    val_main_v14_apply, val_main_v13_apply, val_main_v12_apply, val_main_v11_apply]
  rfl

/-- The reference's result: the quotient of the two totals over every entry, from zero. -/
theorem result_eq (x0 : S32x1x512x512.Idx → EReal) (x1 : S32.Idx → EReal) (x2 x3 : S32x1x512x512.Idx → EReal) :
    val_main_v21 (F := Ideal) x0 x1 x2 x3 = fun _ => meanLoss x0 x1 x2 x3 := by
  funext i
  rw [val_main_v21_apply, val_main_v20_apply, val_main_v18_apply, val_main_v17_apply, val_main_cst_4_apply,
    val_main_cst_2_apply, val_main_cst_3_apply]
  simp only [term_apply, mask_apply]
  rfl

end Cert.ReferenceIdeal.RefValue

end
-- ==== Proof.lean ====
/-
  The loss kernel against its reference: masked binary cross-entropy with logits over [32,1,512,512], averaged
  over the entries where both masks exceed one half.
  The kernel walks the leading axis in eight blocks of four; at each block it adds the block's total of loss·mask
  and of the mask to two one-entry accumulators (zeroed at the first block) and at the last block stores
  `sum / max(count, 1)`. The reference takes both totals over the whole arrays at once and divides. Over the extended
  reals the two agree because addition is associative and commutative: the order of accumulation and the grouping into
  blocks do not change a total (Proof/BlockSums.lean, Proof/LossSpec.lean); entry by entry the two programs compute the
  same mask and the same loss (the kernel's `0 − |x|` is the reference's `−|x|`; the kernel's mask bit widened and read
  signed is the reference's bit read unsigned). No finiteness of the inputs is used.
  The frames of the two kernel programs are the generated ones; the reference's frame is its run with the result
  dropped; the idealization rewrote nothing, so `preserves` is trivial.
-/
import proofs.«147590_j15908558864773_1_alg».proof.Defs
import proofs.«147590_j15908558864773_1_alg».proof.Proof.Gen.Kernel
import proofs.«147590_j15908558864773_1_alg».proof.Proof.Gen.Kernel.Skeleton
import proofs.«147590_j15908558864773_1_alg».proof.Proof.Gen.Kernel.Launch
import proofs.«147590_j15908558864773_1_alg».proof.Proof.Gen.Kernel.Points
import proofs.«147590_j15908558864773_1_alg».proof.Proof.Gen.Kernel.Frame
import proofs.«147590_j15908558864773_1_alg».proof.Proof.Gen.KernelIdeal
import proofs.«147590_j15908558864773_1_alg».proof.Proof.Gen.KernelIdeal.Skeleton
import proofs.«147590_j15908558864773_1_alg».proof.Proof.Gen.KernelIdeal.Launch
import proofs.«147590_j15908558864773_1_alg».proof.Proof.Gen.KernelIdeal.Points
import proofs.«147590_j15908558864773_1_alg».proof.Proof.Gen.KernelIdeal.Frame
import proofs.«147590_j15908558864773_1_alg».proof.Proof.Gen.ReferenceIdeal
import proofs.«147590_j15908558864773_1_alg».proof.Proof.Gen.Pre_finite_inputs
import proofs.«147590_j15908558864773_1_alg».proof.Proof.Gen.ReferenceIdeal.Run
import proofs.«147590_j15908558864773_1_alg».proof.Proof.Gen.ReferenceIdeal.Read
import proofs.«147590_j15908558864773_1_alg».proof.Proof.KernelValue
import proofs.«147590_j15908558864773_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the scalar result at the masked mean loss of argument arrays that agree. -/
theorem algebraic : Cert.algebraic_KernelIdeal_ReferenceIdeal := by
  intro m ρ m' ρ' _ hagree
  refine ⟨fun c _ => Cert.LossSpec.meanLoss (Cert.KernelIdeal.KValue.Xa m c) (Cert.KernelIdeal.KValue.Ya m c)
      (Cert.KernelIdeal.KValue.Pa m c) (Cert.KernelIdeal.KValue.Na m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
